-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S1x128 : Shape := ⟨2, ![1, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S10000x128 .f32) (main_arg1 : FVec F S10000x10000 .f32) (main_arg2 : FVec F S1x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S1x128 : Shape := ⟨2, ![1, 128]⟩
abbrev S240x10000 : Shape := ⟨2, ![240, 10000]⟩
abbrev S240x128 : Shape := ⟨2, ![240, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x128, .f32⟩
  | .hbm, ⟨3, _⟩ => ⟨S10000x128, .f32⟩
  | .local _ .vmem, ⟨0, _⟩ => ⟨S240x10000, .f32⟩
  | .local _ .vmem, ⟨1, _⟩ => ⟨S240x10000, .f32⟩
  | .local _ .vmem, ⟨2, _⟩ => ⟨S10000x128, .f32⟩
  | .local _ .vmem, ⟨3, _⟩ => ⟨S1x128, .f32⟩
  | .local _ .vmem, ⟨4, _⟩ => ⟨S240x128, .f32⟩
  | .local _ .vmem, ⟨5, _⟩ => ⟨S240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S240x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S240x10000_S240x10000_0_0 : ∀ a, (![0, 0] : Fin 2 → Nat) a + S240x10000.size a ≤ S240x10000.size a
  h_S240x10000 : 0 < S240x10000.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  broadcasts_S1x128_S240x128 : S1x128.Broadcasts S240x128
  inb_S240x128_S240x128_0_0 : ∀ a, (![0, 0] : Fin 2 → Nat) a + S240x128.size a ≤ S240x128.size a
  h_S240x128 : 0 < S240x128.numel
  dot_S240x10000_S10000x128_S240x128_1_0_0_1_n_n_wf : DotDims.WF S240x10000 S10000x128 S240x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S240x10000.size a < S10000x10000.size a
  hwx0_0 : ∀ i : grid0.Coords, EltTy.bits .f32 = 32 ∨ (Rect.unit (s := S10000x10000) (fun a => cc0_transform_0 i a * S240x10000.size a) (fun a => (Pipeline.Clip.of (cc0_transform_0 i a) (S240x10000.size a) (S10000x10000.size a)).extent (S240x10000.size a)) fun a => Pipeline.Clip.inb (Pipeline.Clip.ok_of (hstart0_0 i a))).WholeWords (EltTy.packing .f32)
  hwxs0_0 : ∀ i : grid0.Coords, EltTy.bits .f32 = 32 ∨ (Rect.unit (s := S240x10000) (fun _ => 0) (fun a => (Pipeline.Clip.of (cc0_transform_0 i a) (S240x10000.size a) (S10000x10000.size a)).extent (S240x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S240x128.size a < S10000x128.size a
  hwx0_3 : ∀ i : grid0.Coords, EltTy.bits .f32 = 32 ∨ (Rect.unit (s := S10000x128) (fun a => cc0_transform_3 i a * S240x128.size a) (fun a => (Pipeline.Clip.of (cc0_transform_3 i a) (S240x128.size a) (S10000x128.size a)).extent (S240x128.size a)) fun a => Pipeline.Clip.inb (Pipeline.Clip.ok_of (hstart0_3 i a))).WholeWords (EltTy.packing .f32)
  hwxs0_3 : ∀ i : grid0.Coords, EltTy.bits .f32 = 32 ∨ (Rect.unit (s := S240x128) (fun _ => 0) (fun a => (Pipeline.Clip.of (cc0_transform_3 i a) (S240x128.size a) (S10000x128.size a)).extent (S240x128.size a)) fun a => (Nat.zero_add _).trans_le (Pipeline.Clip.extent_le (Pipeline.Clip.ok_of (hstart0_3 i a)))).WholeWords (EltTy.packing .f32)

variable [Facts₀]

def dot_S240x10000_S10000x128_S240x128_1_0_0_1_n_n : DotDims S240x10000 S10000x128 S240x128 where
  lhsContracting := [1]
  rhsContracting := [0]
  lhsNonContracting := [0]
  rhsNonContracting := [1]
  lhsBatch := []
  rhsBatch := []
  wf := dot_S240x10000_S10000x128_S240x128_1_0_0_1_n_n_wf

abbrev win0_0 : Pipeline.Window sig grid0 :=
  Pipeline.Window.ofSpecClip (Memref.whole main_arg1) S240x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S240x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S1x128 : Shape := ⟨2, ![1, 128]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x128, .f32⟩
  | .hbm, ⟨3, _⟩ => ⟨S10000x128, .f32⟩
  | .hbm, ⟨4, _⟩ => ⟨S10000x128, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelBody.lean ====
/-
  The kernel body's triple, on whole staging buffers at named contents.

  The body loads the whole block of `M`'s rows, the whole of `x` and the whole of `w`, multiplies the block by `x`
  into a zero accumulator, scales lane `j` of the product by `w 0 j`, and stores the result over the whole output
  block.  So it leaves the three input buffers as it found them and the output buffer at the payload of what the
  three held, whatever the output buffer held before.
-/
import proofs.«147417_g68573447848481_cont_sun_c4_810_13_alg».proof.Proof.Gen.Kernel.Frame
import proofs.«147417_g68573447848481_cont_sun_c4_810_13_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole block of `M`'s rows, the whole of `x`, the whole of `w`, the whole output block: the body's four
    access rectangles, each at offset zero with the buffer's own sizes. -/
abbrev rM : Rect S240x10000 := Rect.unit (s := S240x10000) ![0, 0] S240x10000.size Facts₀.inb_S240x10000_S240x10000_0_0
abbrev rX : Rect S10000x128 := Rect.unit (s := S10000x128) ![0, 0] S10000x128.size Facts₀.inb_S10000x128_S10000x128_0_0
abbrev rW : Rect S1x128 := Rect.unit (s := S1x128) ![0, 0] S1x128.size Facts₀.inb_S1x128_S1x128_0_0
abbrev rO : Rect S240x128 := Rect.unit (s := S240x128) ![0, 0] S240x128.size Facts₀.inb_S240x128_S240x128_0_0

/-- What the one store leaves in the output buffer, as the piece it writes. -/
def outBlk (x0 : Vec F S240x10000 .f32) (x1 : Vec F S10000x128 .f32) (x2 : Vec F S1x128 .f32) : Vec F S240x128 .f32 :=
  View.canon [⟨rO, k0_pay1 (View.ld x0 rM) (View.ld x1 rX) (View.ld x2 rW)⟩]

/-- The store's rectangle is the whole buffer. -/
theorem coverO (p0 : Vec F S240x128 .f32) (y : S240x128.Idx) :
    ∃ pc ∈ ([⟨rO, p0⟩] : List (View.Piece (Elt F) S240x128 .f32)), y ∈ pc.1.set :=
  View.cover_of_tiled [⟨rO, p0⟩] S240x128.size (by rfl) y

theorem hz : (![0, 0] : Fin 2 → Nat) = fun _ => 0 := funext fun a => by fin_cases a <;> rfl

/-- A whole-buffer load reads the contents and the one whole-buffer store leaves its payload. -/
theorem outBlk_eq (x0 : Vec F S240x10000 .f32) (x1 : Vec F S10000x128 .f32) (x2 : Vec F S1x128 .f32) :
    outBlk x0 x1 x2 = k0_pay1 x0 x1 x2 := by
  unfold outBlk
  rw [View.canon_unit_zero hz]
  simp only [View.ld_unit_zero (S := S240x10000) hz, View.ld_unit_zero (S := S10000x128) hz, View.ld_unit_zero (S := S1x128) hz]

set_option maxHeartbeats 1000000 in
/-- The body on whole staging memrefs: the three inputs' at contents `x0`, `x1`, `x2`, the output's at anything;
    it returns the inputs' as they were and the output's at the payload of the three. -/
theorem sound_kernel (c : Dev nD) (E : Set ℕ) (i : grid0.Coords)
    (arg1 : Memref sig .tc .vmem S240x10000 .f32) (harg1 : arg1.IsWhole) (arg2 : Memref sig .tc .vmem S10000x128 .f32) (harg2 : arg2.IsWhole)
    (arg3 : Memref sig .tc .vmem S1x128 .f32) (harg3 : arg3.IsWhole) (arg4 : Memref sig .tc .vmem S240x128 .f32) (harg4 : arg4.IsWhole)
    (x0 : Vec F S240x10000 .f32) (x1 : Vec F S10000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__gcn_body i arg1 harg1 arg2 harg2 arg3 harg3 arg4 harg4) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine Eq.trans ?_ (outBlk_eq _ _ _)
  exact View.read_writes_eq_canon _ _ _ (coverO (F := F) _)

end Cert.Kernel.Body

end
-- ==== Proof.KernelFrame.lean ====
/-
  The word-level program's frame: it runs to the end, faults nowhere, and leaves its three argument arrays unchanged.

  The grid has 42 points; point `t` stages rows `240 t ‥ 240 t + 239` of `M`, the whole of `x` and of `w`, and an
  output block of 240 rows.  `42 · 240 = 10080 > 10000`: the last point's blocks of `M` and of the output overhang their
  arrays by 80 rows, so the fetch of `M`'s last block leaves the staging rows past the array's end at contents nothing
  names, and the write-back of the last output block writes its first 160 rows only.  The frame needs nothing of what the
  body computes: the output window's contents are left unnamed (anything in, anything out), `M`'s window is described on
  the rows inside the array only, and `x`'s and `w`'s buffers hold the whole arrays at every point.
-/
import proofs.«147417_g68573447848481_cont_sun_c4_810_13_alg».proof.Proof.KernelBody

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one whose contents this frame never names. -/
def forgets : Fin 4 → Bool := fun w => w.val == 3

/-- The proof data: the arrays as the region finds them; after the body at point `t`, `M`'s buffer at its block (filled
    out past the array's end with a word nothing reads), `x`'s and `w`'s at the whole arrays, the output's unnamed. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- `M`'s window is fetched at every point: its buffer holds the block on the rows inside the array and whatever the
    overwrite before the fetch left (`d`) past them. -/
theorem before0_0 (c : Dev nD) (t : Fin cfg0.N) (d) :
    (dats m 0 c).before 0 t d = win0_0.fill (grid0.coords t) d (iblk m c 0 t) := by
  unfold Dat.before; rw [if_pos (fetch0_0 t)]; rfl
/-- `x`'s and `w`'s windows are fetched once and never move: their buffers hold the whole arrays at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, window by window: the output's buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns: `M`'s buffer described on the rows its transfers move, the output's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The body at any point: the three inputs' buffers hold what `before` says, so the body's triple applies; it hands the
    inputs back as found — `M`'s block filled out with the same `d` — and the output's buffer at the payload, of which
    nothing is kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, Window.cut_fill]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

/-- The body obligation at every point, the output window's contents unnamed. -/
theorem body_obligation (c : Dev nD) :
    BodyObligationLoose (dats (F := F) m 0 c) (defs₀ (F := F)) Variants.none () Set.univ forgets := fun t => by
  rw [bigSep_W0, bigSep_W0]
  exact sound_body m c t

set_option backward.isDefEq.respectTransparency.types false in
/-- Every weakly fair execution of @main terminates; every input array of the pipeline ends at its entry contents. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the three argument arrays are inputs of the pipeline, so each ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(Pipeline.RDat.FramePost.arr_in h c (1 : Fin 4) rfl).trans ((A_eq m c 1).trans (V_main_arg0 m c)),
      (Pipeline.RDat.FramePost.arr_in h c (0 : Fin 4) rfl).trans ((A_eq m c 0).trans (V_main_arg1 m c)),
      (Pipeline.RDat.FramePost.arr_in h c (2 : Fin 4) rfl).trans ((A_eq m c 2).trans (V_main_arg2 m c))⟩) (run_main m ρ)

end Cert.Kernel.FrameRun

end
-- ==== Proof.IdealBody.lean ====
/-
  The kernel body's triple, on whole staging buffers at named contents.

  The body loads the whole block of `M`'s rows, the whole of `x` and the whole of `w`, multiplies the block by `x`
  into a zero accumulator, scales lane `j` of the product by `w 0 j`, and stores the result over the whole output
  block.  So it leaves the three input buffers as it found them and the output buffer at the payload of what the
  three held, whatever the output buffer held before.
-/
import proofs.«147417_g68573447848481_cont_sun_c4_810_13_alg».proof.Proof.Gen.KernelIdeal.Frame
import proofs.«147417_g68573447848481_cont_sun_c4_810_13_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole block of `M`'s rows, the whole of `x`, the whole of `w`, the whole output block: the body's four
    access rectangles, each at offset zero with the buffer's own sizes. -/
abbrev rM : Rect S240x10000 := Rect.unit (s := S240x10000) ![0, 0] S240x10000.size Facts₀.inb_S240x10000_S240x10000_0_0
abbrev rX : Rect S10000x128 := Rect.unit (s := S10000x128) ![0, 0] S10000x128.size Facts₀.inb_S10000x128_S10000x128_0_0
abbrev rW : Rect S1x128 := Rect.unit (s := S1x128) ![0, 0] S1x128.size Facts₀.inb_S1x128_S1x128_0_0
abbrev rO : Rect S240x128 := Rect.unit (s := S240x128) ![0, 0] S240x128.size Facts₀.inb_S240x128_S240x128_0_0

/-- What the one store leaves in the output buffer, as the piece it writes. -/
def outBlk (x0 : Vec F S240x10000 .f32) (x1 : Vec F S10000x128 .f32) (x2 : Vec F S1x128 .f32) : Vec F S240x128 .f32 :=
  View.canon [⟨rO, k0_pay1 (View.ld x0 rM) (View.ld x1 rX) (View.ld x2 rW)⟩]

/-- The store's rectangle is the whole buffer. -/
theorem coverO (p0 : Vec F S240x128 .f32) (y : S240x128.Idx) :
    ∃ pc ∈ ([⟨rO, p0⟩] : List (View.Piece (Elt F) S240x128 .f32)), y ∈ pc.1.set :=
  View.cover_of_tiled [⟨rO, p0⟩] S240x128.size (by rfl) y

theorem hz : (![0, 0] : Fin 2 → Nat) = fun _ => 0 := funext fun a => by fin_cases a <;> rfl

/-- A whole-buffer load reads the contents and the one whole-buffer store leaves its payload. -/
theorem outBlk_eq (x0 : Vec F S240x10000 .f32) (x1 : Vec F S10000x128 .f32) (x2 : Vec F S1x128 .f32) :
    outBlk x0 x1 x2 = k0_pay1 x0 x1 x2 := by
  unfold outBlk
  rw [View.canon_unit_zero hz]
  simp only [View.ld_unit_zero (S := S240x10000) hz, View.ld_unit_zero (S := S10000x128) hz, View.ld_unit_zero (S := S1x128) hz]

set_option maxHeartbeats 1000000 in
/-- The body on whole staging memrefs: the three inputs' at contents `x0`, `x1`, `x2`, the output's at anything;
    it returns the inputs' as they were and the output's at the payload of the three. -/
theorem sound_kernel (c : Dev nD) (E : Set ℕ) (i : grid0.Coords)
    (arg1 : Memref sig .tc .vmem S240x10000 .f32) (harg1 : arg1.IsWhole) (arg2 : Memref sig .tc .vmem S10000x128 .f32) (harg2 : arg2.IsWhole)
    (arg3 : Memref sig .tc .vmem S1x128 .f32) (harg3 : arg3.IsWhole) (arg4 : Memref sig .tc .vmem S240x128 .f32) (harg4 : arg4.IsWhole)
    (x0 : Vec F S240x10000 .f32) (x1 : Vec F S10000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__gcn_body i arg1 harg1 arg2 harg2 arg3 harg3 arg4 harg4) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine Eq.trans ?_ (outBlk_eq _ _ _)
  exact View.read_writes_eq_canon _ _ _ (coverO (F := F) _)

end Cert.KernelIdeal.Body

end
-- ==== Proof.IdealPay.lean ====
/-
  The body's payload read at an index, at the ideal values.

  At row `p` and lane `q` of the output block the payload is the contraction of row `p` of the first operand with
  column `q` of the second — the matrix product into a zero accumulator is the plain finite sum —, scaled by lane `q`
  of the one-row third operand, which is broadcast down the rows:
  `(∑ k, X0 p k · X1 k q) · X2 0 q`.  Row `p` of the result reads row `p` of the first operand only.
-/
import proofs.«147417_g68573447848481_cont_sun_c4_810_13_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen
open Idealize.ShloMosaic Idealize.ShloMosaic.ValueIdx

/-- The contraction's operand indices, axis by axis: the left operand is read at the output's row and the
    contraction index, the right operand at the contraction index and the output's lane. -/
theorem lhs_0 (i : S240x128.Idx) (q : dot_S240x10000_S10000x128_S240x128_1_0_0_1_n_n.contr.Idx) :
    (dot_S240x10000_S10000x128_S240x128_1_0_0_1_n_n.lhsIdx i q 0).val = (i 0).val := by
  unfold DotDims.lhsIdx
  rw [dif_neg (show ¬(0 : Fin S240x10000.rank) ∈ dot_S240x10000_S10000x128_S240x128_1_0_0_1_n_n.lhsBatch by decide), dif_pos (show (0 : Fin S240x10000.rank) ∈ dot_S240x10000_S10000x128_S240x128_1_0_0_1_n_n.lhsNonContracting by decide)]
  rfl
theorem lhs_1 (i : S240x128.Idx) (q : dot_S240x10000_S10000x128_S240x128_1_0_0_1_n_n.contr.Idx) :
    (dot_S240x10000_S10000x128_S240x128_1_0_0_1_n_n.lhsIdx i q 1).val = (q ⟨0, by decide⟩).val :=
  dot_S240x10000_S10000x128_S240x128_1_0_0_1_n_n.lhsIdx_val_of_single rfl i q
theorem rhs_0 (i : S240x128.Idx) (q : dot_S240x10000_S10000x128_S240x128_1_0_0_1_n_n.contr.Idx) :
    (dot_S240x10000_S10000x128_S240x128_1_0_0_1_n_n.rhsIdx i q 0).val = (q ⟨0, by decide⟩).val :=
  dot_S240x10000_S10000x128_S240x128_1_0_0_1_n_n.rhsIdx_val_of_single rfl i q
theorem rhs_1 (i : S240x128.Idx) (q : dot_S240x10000_S10000x128_S240x128_1_0_0_1_n_n.contr.Idx) :
    (dot_S240x10000_S10000x128_S240x128_1_0_0_1_n_n.rhsIdx i q 1).val = (i 1).val := by
  unfold DotDims.rhsIdx
  rw [dif_neg (show ¬(1 : Fin S10000x128.rank) ∈ dot_S240x10000_S10000x128_S240x128_1_0_0_1_n_n.rhsBatch by decide), dif_pos (show (1 : Fin S10000x128.rank) ∈ dot_S240x10000_S10000x128_S240x128_1_0_0_1_n_n.rhsNonContracting by decide)]
  rfl

/-- The matrix product into a zero accumulator, at row `p` and lane `q`: the sum over the contraction index. -/
theorem matmul_zero_apply (X0 : Vec Ideal S240x10000 .f32) (X1 : Vec Ideal S10000x128 .f32) (p : Fin 240) (q : Fin 128) :
    matmul (F := Ideal) (φ₁ := .f32) (φ₂ := .f32) dot_S240x10000_S10000x128_S240x128_1_0_0_1_n_n none X0 X1 (constant (F := Ideal) S240x128 .f32 0x00000000#32) (ix2 p q)
      = ∑ k : Fin 10000, X0 (ix2 p k) * X1 (ix2 k q) := by
  simp only [matmul]
  rw [Ideal.matmul_constant_zero_apply, ← Equiv.sum_comp (ValueIdx.contrEquiv1 dot_S240x10000_S10000x128_S240x128_1_0_0_1_n_n 10000 rfl rfl).symm]
  refine Finset.sum_congr rfl fun k _ => ?_
  have hk := ValueIdx.contrEquiv1_symm_val dot_S240x10000_S10000x128_S240x128_1_0_0_1_n_n 10000 rfl rfl k
  have el : dot_S240x10000_S10000x128_S240x128_1_0_0_1_n_n.lhsIdx (ix2 p q) ((ValueIdx.contrEquiv1 dot_S240x10000_S10000x128_S240x128_1_0_0_1_n_n 10000 rfl rfl).symm k) = ix2 p k := funext fun a => Fin.ext (by
    match a with
    | ⟨0, _⟩ => exact lhs_0 _ _
    | ⟨1, _⟩ => exact (lhs_1 _ _).trans hk)
  have er : dot_S240x10000_S10000x128_S240x128_1_0_0_1_n_n.rhsIdx (ix2 p q) ((ValueIdx.contrEquiv1 dot_S240x10000_S10000x128_S240x128_1_0_0_1_n_n 10000 rfl rfl).symm k) = ix2 k q := funext fun a => Fin.ext (by
    match a with
    | ⟨0, _⟩ => exact (rhs_0 _ _).trans hk
    | ⟨1, _⟩ => exact rhs_1 _ _)
  rw [el, er]

/-- The payload at row `p`, lane `q`. -/
theorem pay_apply (X0 : Vec Ideal S240x10000 .f32) (X1 : Vec Ideal S10000x128 .f32) (X2 : Vec Ideal S1x128 .f32) (p : Fin 240) (q : Fin 128) :
    k0_pay1 (F := Ideal) X0 X1 X2 (ix2 p q) = (∑ k : Fin 10000, X0 (ix2 p k) * X1 (ix2 k q)) * X2 (ix2 (0 : Fin 1) q) := by
  unfold k0_pay1
  show FloatOps.mulf (matmul (F := Ideal) (φ₁ := .f32) (φ₂ := .f32) dot_S240x10000_S10000x128_S240x128_1_0_0_1_n_n none X0 X1 (constant (F := Ideal) S240x128 .f32 0x00000000#32) (ix2 p q))
      (broadcastTo (α := Elt Ideal .f32) S240x128 X2 Facts₀.broadcasts_S1x128_S240x128 (ix2 p q)) = _
  rw [matmul_zero_apply, broadcastTo_1b_ab_apply]
  rfl

end Cert.KernelIdeal.Pay

end
-- ==== Proof.Spec.lean ====
/-
  The layer's result as one closed form, and the one algebraic law that joins the two programs.

  With `x : [10000, 128]`, `M : [10000, 10000]` and `w : [1, 128]`, the result at row `i`, lane `j` is
  `(∑ k, M i k · x k j) · w 0 j`: row `i` of `M` against column `j` of `x`, then scaled by lane `j` of `w`.
  One program scales after the contraction, the other scales `x` first and contracts afterwards:
  `∑ k, M i k · (x k j · w 0 j)`.  The two agree when every entry is a real number (right distributivity of the
  product over a finite sum, and associativity); on the extended reals distributivity fails at the infinities, so
  the law is stated for real-valued families.
-/
import Idealize.ShloMosaic.PureOps.Ideal
import Idealize.ShloMosaic.Lib.ValueIdx

noncomputable section

namespace Cert.Gcn

open Idealize.ShloMosaic Idealize.ShloMosaic.ValueIdx

abbrev SX : Shape := ⟨2, ![10000, 128]⟩
abbrev SM : Shape := ⟨2, ![10000, 10000]⟩
abbrev SW : Shape := ⟨2, ![1, 128]⟩

/-- The layer's result: at row `i 0` and lane `i 1`, row `i 0` of `M` contracted with column `i 1` of `x`, the
    sum then scaled by lane `i 1` of `w`. -/
def gcn (x : SX.Idx → EReal) (M : SM.Idx → EReal) (w : SW.Idx → EReal) : SX.Idx → EReal :=
  fun i => (∑ k : Fin 10000, M (ix2 (i 0) k) * x (ix2 k (i 1))) * w (ix2 (0 : Fin 1) (i 1))

/-- Every entry of the family is a real number (neither infinity). -/
def IsReal {ι : Type} (f : ι → EReal) : Prop := ∀ i, ∃ r : ℝ, f i = (r : EReal)

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Scaling a contraction of real-valued families is contracting against the scaled family:
    `(∑ k, A k · B k) · W = ∑ k, A k · (B k · W)`. -/
theorem sum_mul_scale {ι : Type} [Fintype ι] (A B : ι → EReal) (W : EReal)
    (hA : IsReal A) (hB : IsReal B) (hW : ∃ r : ℝ, W = (r : EReal)) :
    (∑ k, A k * B k) * W = ∑ k, A k * (B k * W) := by
  choose a ha using hA
  choose b hb using hB
  obtain ⟨w, rfl⟩ := hW
  simp only [ha, hb, ← EReal.coe_mul, ← coe_sum, Finset.sum_mul, mul_assoc]

end Cert.Gcn

end
-- ==== Proof.IdealRun.lean ====
/-
  The idealized kernel's run, with its result array named.

  The grid has 42 points; point `t` stages rows `240 t ‥` of `M` (240 of them, at the last point the 160 inside the
  array), the whole of `x` and of `w`, and writes back the same rows of the result.  At a row `p` inside the array the
  body's payload is `(∑ k, M (240 t + p) k · x k q) · w 0 q`: it reads row `p` of the staged block only, so the rows the
  last fetch leaves unnamed past the array's end reach no row that is written back.  Hence what point `t` writes back
  is block `t` of the one array `gcn x M w`, the blocks cover all 10000 rows (row `r` lies in block `r / 240`), and the
  result array ends holding `gcn x M w`.
-/
import proofs.«147417_g68573447848481_cont_sun_c4_810_13_alg».proof.Proof.IdealBody
import proofs.«147417_g68573447848481_cont_sun_c4_810_13_alg».proof.Proof.IdealPay
import proofs.«147417_g68573447848481_cont_sun_c4_810_13_alg».proof.Proof.Spec

set_option maxRecDepth 16384

noncomputable section

namespace Cert.KernelIdeal.ValueRun

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx Cert.Gcn

local notation "𝕄" => MT nD τ sig Unit (Elt Ideal) ℕ (UR sig nD τ) ℕ

variable (m : (ℓ : Loc nD τ sig) → Buf (Elt Ideal) ℓ) (ρ : Dev nD → PrngReg)

/-- The layer's closed form of the three argument arrays as the region finds them. -/
def G (c : Dev nD) : Buf (Elt Ideal) ((c : Thread nD τ).loc main_v0) :=
  gcn (V m c main_arg0) (V m c main_arg1) (V m c main_arg2)

/-- The word the proof data puts past the array's end in a cut block; nothing reads it. -/
abbrev pad : Elt Ideal .f32 := Scalar.ofBits (F := Ideal) .f32 0#32

/-- The proof data: after the body at point `t`, `M`'s buffer at its block, `x`'s and `w`'s at the whole arrays, the
    output's at block `t` of `G` — each cut block filled out past the array's end with a word nothing reads. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => pad) (iblk m c 0 t)
    | ⟨1, _⟩ => iblk m c 1 t
    | ⟨2, _⟩ => iblk m c 2 t
    | ⟨3, _⟩ => win0_3.fill (grid0.coords t) (fun _ => pad) ((win0_3.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => pad) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = win0_3.fill (grid0.coords t) (fun _ => pad) ((win0_3.blk t).view.read (Elt Ideal) (G m c)) := by
  dsimp only [dats]

theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The blocks over the grid -/

/-- The printed index maps and cuts, decided over the 42 points: `M`'s block and the output's sit at the same rows and
    are cut alike; `M`'s block spans all 10000 columns, the output's all 128 lanes; the output's block index on the
    row axis is the point, and its rows end at `min (240 t + 240) 10000`; `x`'s and `w`'s blocks are the whole arrays. -/
theorem idx_facts : ∀ t : Fin cfg0.N,
    win0_0.index t (0 : Fin 2) = win0_3.index t (0 : Fin 2) ∧ win0_0.index t (1 : Fin 2) = 0 ∧ win0_3.index t (1 : Fin 2) = 0
    ∧ win0_0.xsize (grid0.coords t) (0 : Fin 2) = win0_3.xsize (grid0.coords t) (0 : Fin 2)
    ∧ win0_0.xsize (grid0.coords t) (1 : Fin 2) = 10000 ∧ win0_3.xsize (grid0.coords t) (1 : Fin 2) = 128
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val
    ∧ t.val * 240 + win0_3.xsize (grid0.coords t) (0 : Fin 2) = min (t.val * 240 + 240) 10000 :=
  (by decide +kernel : ∀ t : Fin grid0.N, _)

/-- The payload at row `p`, lane `q`, when row `p` of the staged block is row `r` of `M` and the other two buffers
    hold `x` and `w` where the payload reads them: the closed form at row `r`, lane `q`. -/
theorem pay_eq_gcn (Mb : Vec Ideal S240x10000 .f32) (Xb : Vec Ideal S10000x128 .f32) (Wb : Vec Ideal S1x128 .f32)
    (x : SX.Idx → EReal) (M : SM.Idx → EReal) (w : SW.Idx → EReal) (r : Fin 10000) (p : Fin 240) (q : Fin 128)
    (hM : ∀ k : Fin 10000, Mb (ix2 p k) = M (ix2 r k)) (hX : ∀ k : Fin 10000, Xb (ix2 k q) = x (ix2 k q))
    (hW : Wb (ix2 (0 : Fin 1) q) = w (ix2 (0 : Fin 1) q)) :
    k0_pay1 (F := Ideal) Mb Xb Wb (ix2 p q) = gcn x M w (ix2 r q) := by
  rw [Cert.KernelIdeal.Pay.pay_apply]
  unfold gcn
  simp only [hM, hX, hW]

/-- WHAT THE BODY LEAVES ON THE ROWS WRITTEN BACK is block `t` of `G`, whatever fills `M`'s buffer past the array's end. -/
theorem pay_cut (c : Dev nD) (t : Fin cfg0.N) (d0 : S240x10000.Idx → Elt Ideal .f32) :
    win0_3.cut (grid0.coords t) (k0_pay1 (F := Ideal) (win0_0.fill (grid0.coords t) d0 (iblk m c 0 t)) (iblk m c 1 t) (iblk m c 2 t))
      = (win0_3.blk t).view.read (Elt Ideal) (G m c) := by
  obtain ⟨e0, e1, e2, e3, e4, e5, e6, e7, e8, e9, e10, e11⟩ := idx_facts t
  funext j
  have hj0 : (j 0).val < win0_3.xsize (grid0.coords t) (0 : Fin 2) := (j 0).isLt
  have hj1 : (j 1).val < win0_3.xsize (grid0.coords t) (1 : Fin 2) := (j 1).isLt
  have hx0 : win0_3.xsize (grid0.coords t) (0 : Fin 2) ≤ 240 := win0_3.xsize_le _ 0
  have hr : win0_3.index t (0 : Fin 2) * 240 + (j 0).val < 10000 := by omega
  -- the written-back index `j` as a row `p` and a lane `q` of the block, and as row `r`, lane `q` of the array
  have hxi : win0_3.xinj (grid0.coords t) j = ix2 (⟨(j 0).val, by omega⟩ : Fin 240) (⟨(j 1).val, by omega⟩ : Fin 128) :=
    funext fun a => Fin.ext (by
      match a with
      | ⟨0, _⟩ => rfl
      | ⟨1, _⟩ => rfl)
  have hemb : (win0_3.blk t).view.emb j = ix2 (⟨win0_3.index t (0 : Fin 2) * 240 + (j 0).val, hr⟩ : Fin 10000) (⟨(j 1).val, by omega⟩ : Fin 128) :=
    funext fun a => Fin.ext (by
      match a with
      | ⟨0, _⟩ => show win0_3.index t (0 : Fin 2) * 240 + 1 * (j 0).val = win0_3.index t (0 : Fin 2) * 240 + (j 0).val; omega
      | ⟨1, _⟩ => show win0_3.index t (1 : Fin 2) * 128 + 1 * (j 1).val = (j 1).val; omega)
  show k0_pay1 (F := Ideal) _ _ _ (win0_3.xinj (grid0.coords t) j) = G m c ((win0_3.blk t).view.emb j)
  rw [hxi, hemb]
  unfold G
  refine pay_eq_gcn _ _ _ _ _ _ _ _ _ (fun k => ?_) (fun k => ?_) ?_
  · -- row `p` of `M`'s staged block is inside the array: the fetch put row `240 t + p` of `M` there
    have hmv : win0_0.moved (grid0.coords t) (ix2 (⟨(j 0).val, by omega⟩ : Fin 240) k) = true :=
      (win0_0.moved_iff _ _).mpr fun a => by
        match a with
        | ⟨0, _⟩ => show (j 0).val < win0_0.xsize (grid0.coords t) (0 : Fin 2); omega
        | ⟨1, _⟩ => show k.val < win0_0.xsize (grid0.coords t) (1 : Fin 2); omega
    unfold Window.fill
    rw [dif_pos hmv]
    show V m c main_arg1 ((win0_0.blk t).view.emb _) = V m c main_arg1 _
    refine congrArg (V m c main_arg1) (funext fun a => Fin.ext ?_)
    match a with
    | ⟨0, _⟩ => show win0_0.index t (0 : Fin 2) * 240 + 1 * (j 0).val = win0_3.index t (0 : Fin 2) * 240 + (j 0).val; omega
    | ⟨1, _⟩ => show win0_0.index t (1 : Fin 2) * 10000 + 1 * k.val = k.val; omega
  · -- `x`'s buffer holds the whole of `x`
    show V m c main_arg0 ((win0_1.blk t).view.emb _) = V m c main_arg0 _
    refine congrArg (V m c main_arg0) (funext fun a => Fin.ext ?_)
    match a with
    | ⟨0, _⟩ => show win0_1.index t (0 : Fin 2) * 10000 + 1 * k.val = k.val; omega
    | ⟨1, _⟩ => show win0_1.index t (1 : Fin 2) * 128 + 1 * (j 1).val = (j 1).val; omega
  · -- `w`'s buffer holds the whole of `w`
    show V m c main_arg2 ((win0_2.blk t).view.emb _) = V m c main_arg2 _
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 128 + 1 * (j 1).val = (j 1).val; omega

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- The two cut windows (`M`'s and the output's) are handed back described on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point: it leaves the payload of what the three input buffers hold in the output's buffer, and on the
    rows written back that payload is block `t` of `G` (`pay_cut`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, Window.cut_fill, Window.cut_fill]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (k0_pay1 (F := Ideal) (win0_0.fill (grid0.coords t) d0 (iblk m c 0 t)) (iblk m c 1 t) (iblk m c 2 t))
  rw [← pay_cut m c t d0, Window.fill_cut]
  iexact H3

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The result array -/

/-- What point `t` writes back is block `t` of `G`. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  exact win0_3.cut_fill _ _ _

/-- An index of the result array is in point `t`'s block iff each coordinate is within the block's cut range. -/
theorem mem_blk3 (t : Fin cfg0.N) (i : S10000x128.Idx) :
    i ∈ ((cfg0.win 3).blk t).view.set ↔ ∀ a : Fin 2, win0_3.index t a * S240x128.size a ≤ (i a).val
      ∧ (i a).val < win0_3.index t a * S240x128.size a + win0_3.xsize (grid0.coords t) a := by
  show i ∈ ((View.whole main_v0).slice (win0_3.rect t)).set ↔ _
  rw [View.set_slice_whole, Rect.mem_set_unit]
  exact Iff.rfl

/-- Row `r` of the result lies in the block of point `r / 240`, which is written back. -/
theorem cover3 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : (i 0).val / 240 < cfg0.N := by show _ < grid0.N; rw [N_0]; omega
  refine ⟨⟨(i 0).val / 240, hN⟩, flush0_3 _, ?_⟩
  obtain ⟨e0, e1, e2, e3, e4, e5, e6, e7, e8, e9, e10, e11⟩ := idx_facts ⟨(i 0).val / 240, hN⟩
  have e10' : win0_3.index ⟨(i 0).val / 240, hN⟩ (0 : Fin 2) = (i 0).val / 240 := e10
  have e11' : (i 0).val / 240 * 240 + win0_3.xsize (grid0.coords ⟨(i 0).val / 240, hN⟩) (0 : Fin 2) = min ((i 0).val / 240 * 240 + 240) 10000 := e11
  rw [mem_blk3]
  intro a
  match a with
  | ⟨0, _⟩ =>
    show win0_3.index ⟨(i 0).val / 240, hN⟩ (0 : Fin 2) * 240 ≤ (i 0).val
      ∧ (i 0).val < win0_3.index ⟨(i 0).val / 240, hN⟩ (0 : Fin 2) * 240 + win0_3.xsize (grid0.coords ⟨(i 0).val / 240, hN⟩) (0 : Fin 2)
    omega
  | ⟨1, _⟩ =>
    show win0_3.index ⟨(i 0).val / 240, hN⟩ (1 : Fin 2) * 128 ≤ (i 1).val
      ∧ (i 1).val < win0_3.index ⟨(i 0).val / 240, hN⟩ (1 : Fin 2) * 128 + win0_3.xsize (grid0.coords ⟨(i 0).val / 240, hN⟩) (1 : Fin 2)
    omega

/-- The result array after the run is `G`. -/
theorem final3 (c : Dev nD) : (dats m 0 c).arrAt 3 cfg0.N = G m c :=
  (dats m 0 c).arrAt_eq_of_cover 3 (G m c) (fun t _ => flushed3_eq m c t) cover3

/-- The run, read: the result array at `gcn` of the argument arrays, the arguments unchanged. -/
theorem run : θ_run defs (onTc (τ := τ) (main (F := Ideal))) ⟨m, fun _ => 0, ρ⟩ fun r => ∀ c : Dev nD,
      r.2.mem ((c.tc : Thread nD τ).loc main_v0)
        = gcn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans (final3 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c)))⟩) (run_main m ρ)

end Cert.KernelIdeal.ValueRun

end
-- ==== Proof.RefSide.lean ====
/-
  The reference program's result is the closed form `gcn`.

  The reference scales `x` by the broadcast of `w` and then contracts `M` against the scaled array: at row `i 0`,
  lane `i 1` it is `∑ k, M (i 0) k · (x k (i 1) · w 0 (i 1))`.  For real-valued arrays this is
  `(∑ k, M (i 0) k · x k (i 1)) · w 0 (i 1)` by distributivity and associativity (`sum_mul_scale`).
-/
import proofs.«147417_g68573447848481_cont_sun_c4_810_13_alg».proof.Proof.Gen.ReferenceIdeal.Read
import proofs.«147417_g68573447848481_cont_sun_c4_810_13_alg».proof.Proof.Spec

noncomputable section

namespace Cert.RefSide

open Idealize.ShloMosaic Idealize.ShloMosaic.ValueIdx Cert.ReferenceIdeal Cert.ReferenceIdeal.Read Cert.Gcn

/-- The reference's last stage, at the ideal values, is `gcn` of real-valued arguments. -/
theorem ref_eq_gcn (x : (⟨S10000x128, .f32⟩ : BufTy).Contents (Elt Ideal)) (M : (⟨S10000x10000, .f32⟩ : BufTy).Contents (Elt Ideal))
    (w : (⟨S1x128, .f32⟩ : BufTy).Contents (Elt Ideal)) (hx : IsReal x) (hM : IsReal M) (hw : IsReal w) :
    val_main_v2 (F := Ideal) x M w = gcn x M w := by
  funext i
  rw [val_main_v2_apply]
  unfold gcn
  rw [sum_mul_scale _ _ _ (fun k => hM _) (fun k => hx _) (hw _)]
  refine Finset.sum_congr rfl fun k _ => ?_
  rw [val_main_v1_apply, val_main_v0_apply]
  have e1 : lidx_main_v2 i k = ix2 (i 0) k := funext fun a => Fin.ext (by
    match a with
    | ⟨0, _⟩ => rfl
    | ⟨1, _⟩ => rfl)
  have e2 : ridx_main_v2 i k = ix2 k (i 1) := funext fun a => Fin.ext (by
    match a with
    | ⟨0, _⟩ => rfl
    | ⟨1, _⟩ => rfl)
  have e3 : idx_main_v0 (ridx_main_v2 i k) = ix2 (0 : Fin 1) (i 1) := funext fun a => Fin.ext (by
    match a with
    | ⟨0, _⟩ => rfl
    | ⟨1, _⟩ => rfl)
  rw [e1, e3, e2]
  rfl

end Cert.RefSide

end
-- ==== Proof.Finite.lean ====
/-
  The precondition "every float input is finite", read back entry by entry.

  For each of the three arrays the predicate computes `|a| < +∞` at every entry `a`, takes the conjunction of these
  one-bit words over both axes, and joins the three results by `and`.  If the whole word is 1, each conjunction is 1,
  so every entry's test is 1.  On the extended reals `|a| = max a (-a)` equals `⊤` exactly at `a = ⊤` and `a = ⊥`, so
  `|a| < ⊤` leaves only the real numbers.  Every step is taken at an arbitrary index; no index set is enumerated.
-/
import proofs.«147417_g68573447848481_cont_sun_c4_810_13_alg».proof.Pre_finite_inputs
import proofs.«147417_g68573447848481_cont_sun_c4_810_13_alg».proof.Proof.Spec
import Idealize.ShloMosaic.Lib.ReduceAll
import Idealize.ShloMosaic.PureOps.Ideal.Laws
import Idealize.ShloMosaic.Lib.ValueIdx

namespace Cert.Finite

open Idealize.ShloMosaic

/-- The f32 pattern `0x7F800000` (sign clear, exponent all ones, fraction zero) denotes `+∞`. -/
theorem ofBits_inf : Ideal.ofBits .f32 0x7F800000#32 = (⊤ : EReal) := by
  simp [Ideal.ofBits, Ideal.ieee]

/-- An extended real whose absolute value `max a (-a)` lies strictly below `+∞` is a real number:
    at `⊤` the maximum is `⊤` itself, at `⊥` it is `-⊥ = ⊤`. -/
theorem real_of_abs_lt_top (a : EReal) (h : max a (-a) < ⊤) : ∃ r : ℝ, a = (r : EReal) := by
  induction a using EReal.rec with
  | bot => simp at h
  | coe r => exact ⟨r, rfl⟩
  | top => simp at h

/-- One element's test read back: if `|a| < +∞` holds as an `i1` word, `a` is a real number. -/
theorem real_of_test (a : Ideal .f32)
    (h : FloatOps.cmpf .olt (FloatOps.hostAbsf a) (FloatOps.ofBits (F := Ideal) .f32 0x7F800000#32) = 1#1) :
    ∃ r : ℝ, a = (r : EReal) := by
  refine real_of_abs_lt_top a ?_
  have h' : BitVec.ofBool (decide (max a (-a) < Ideal.ofBits .f32 0x7F800000#32)) = 1#1 := h
  rw [ofBits_inf] at h'
  by_contra hc
  simp [hc] at h'

/-- The rank-0 result shape has one index. -/
instance : Subsingleton Cert.Pre_finite_inputs.S_.Idx := ⟨fun a b => funext fun d => d.elim0⟩

/-- If the printed predicate holds (its one-bit result is 1), every entry of each of the three arrays is a real
    number: the outer `and`s split into the three conjunctions, each conjunction over all entries gives the test at
    any one entry, and the test `|a| < +∞` excludes both infinities. -/
theorem real_of_pre [Cert.Pre_finite_inputs.Facts]
    (x : FVec Ideal Cert.Pre_finite_inputs.S10000x128 .f32) (M : FVec Ideal Cert.Pre_finite_inputs.S10000x10000 .f32) (w : FVec Ideal Cert.Pre_finite_inputs.S1x128 .f32)
    (h : Cert.Pre_finite_inputs.fn (F := Ideal) x M w = fun _ => 1#1) :
    Cert.Gcn.IsReal x ∧ Cert.Gcn.IsReal M ∧ Cert.Gcn.IsReal w := by
  have h0 := congrFun h ValueIdx.ix0
  dsimp only [Cert.Pre_finite_inputs.fn] at h0
  obtain ⟨h01, h2⟩ := IntOp.andi_eq_one.1 h0
  obtain ⟨hx, hM⟩ := IntOp.andi_eq_one.1 h01
  exact ⟨fun i => real_of_test _ (Host.reduce_andi_all _ _ _ _ _ hx i),
    fun i => real_of_test _ (Host.reduce_andi_all _ _ _ _ _ hM i),
    fun i => real_of_test _ (Host.reduce_andi_all _ _ _ _ _ h2 i)⟩

end Cert.Finite
-- ==== Proof.lean ====
/-
  A graph-convolution layer `out = M · (x ∘ w)`: `x : [10000, 128]`, `M : [10000, 10000]`, `w : [1, 128]` broadcast over
  the rows of `x`.

  The kernel walks the rows of `M` in 42 blocks of 240 (the last block overhangs the array by 80 rows and is cut at the
  array's end), multiplies each block by the whole of `x` and scales lane `j` of the product by `w 0 j`:
  `out i j = (∑ k, M i k · x k j) · w 0 j`.  The reference scales first and contracts afterwards:
  `out i j = ∑ k, M i k · (x k j · w 0 j)`.  For finite inputs every entry is a real number and the two agree by
  distributivity and associativity; on the extended reals distributivity fails at the infinities, so the precondition
  is used exactly there.

  The pieces: the word-level kernel's frame (its output's contents never named); the idealized kernel's run with the
  result array at the closed form `gcn x M w` (a written-back row reads its own row of the staged block only, and the
  42 blocks cover the 10000 rows); the reference's run at the same closed form for real-valued inputs; and the
  precondition read back as "every entry is real".
-/
import proofs.«147417_g68573447848481_cont_sun_c4_810_13_alg».proof.Defs
import proofs.«147417_g68573447848481_cont_sun_c4_810_13_alg».proof.Proof.Gen.Kernel
import proofs.«147417_g68573447848481_cont_sun_c4_810_13_alg».proof.Proof.Gen.KernelIdeal
import proofs.«147417_g68573447848481_cont_sun_c4_810_13_alg».proof.Proof.Gen.ReferenceIdeal
import proofs.«147417_g68573447848481_cont_sun_c4_810_13_alg».proof.Proof.Gen.Pre_finite_inputs
import proofs.«147417_g68573447848481_cont_sun_c4_810_13_alg».proof.Proof.Gen.ReferenceIdeal.Run
import proofs.«147417_g68573447848481_cont_sun_c4_810_13_alg».proof.Proof.KernelFrame
import proofs.«147417_g68573447848481_cont_sun_c4_810_13_alg».proof.Proof.IdealRun
import proofs.«147417_g68573447848481_cont_sun_c4_810_13_alg».proof.Proof.RefSide
import proofs.«147417_g68573447848481_cont_sun_c4_810_13_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.FrameRun.frame (F := Bits) m ρ

/-- So does the idealized kernel: its run with the result dropped. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.ValueRun.run m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both idealized programs end with the result at `gcn x M w`: the kernel's
    for any inputs, the reference's because the precondition makes every entry real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.ValueRun.run m ρ, ?_⟩
  refine (θ_run Cert.ReferenceIdeal.defs _ _).mono (fun r h c => ⟨(h c).1.trans ?_, (h c).2⟩)
    (Cert.ReferenceIdeal.Value.run (F := Ideal) m' ρ')
  obtain ⟨hx, hM, hw⟩ := Cert.Finite.real_of_pre _ _ _ (hpre c)
  rw [Cert.ReferenceIdeal.Read.val_main_v2_eq, (hagree c).1, (hagree c).2.1, (hagree c).2.2]
  exact Cert.RefSide.ref_eq_gcn _ _ _ hx hM hw

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
